-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S16384x4096 : Shape := ⟨2, ![16384, 4096]⟩
abbrev S4096 : Shape := ⟨1, ![4096]⟩
abbrev S512x4096 : Shape := ⟨2, ![512, 4096]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096_S4096_0 : ∀ a, (![0] : Fin 1 → Nat) a + S4096.size a ≤ S4096.size a
  h_S4096 : 0 < S4096.numel
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096 : Shape := ⟨1, ![4096]⟩
abbrev S1x4096 : Shape := ⟨2, ![1, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S16384x4096, .f32⟩
  | .hbm, ⟨5, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)

variable [Facts₀]

class Facts : Prop extends Facts₀ where

variable [Facts]
-- ==== Proof.ColumnScale.lean ====
/-
  Scaling the columns of a matrix by the exponentials of a vector, on the extended reals.

  For a matrix `x` of 16384 rows and 4096 columns and a vector `d` of 4096 entries, the column-scaled matrix
  has at row `r` and column `k` the entry `x(r, k) · e^{d(k)}`: every row of `x` is multiplied, column by
  column, by the one row vector `exp(d)`.  This is the product `x · diag(exp d)` with a diagonal matrix,
  written without the matrix product: a diagonal matrix has one non-zero entry per column, so the sum over
  the contracted index has the single term above.

  The exponential is the one of the extended reals (`e^{-∞} = 0`, `e^{+∞} = +∞`) and the product the extended
  reals' own, so the entry is defined for every extended-real input; nothing here asks an input to be finite,
  because no law that fails at an infinity (distributing, cancelling) is used: both programs compared against
  this function form the same product of the same two numbers at every index.
-/
import Idealize.ShloMosaic.PureOps.Ideal
import Idealize.ShloMosaic.Lib.ValueIdx

noncomputable section

namespace Cert.ColumnScale

open Idealize.ShloMosaic Idealize.ShloMosaic.ValueIdx

/-- The matrix's index space: 16384 rows of 4096 columns. -/
abbrev Mat : Shape := ⟨2, ![16384, 4096]⟩

/-- The scale vector's index space: one entry per column of the matrix. -/
abbrev Cols : Shape := ⟨1, ![4096]⟩

/-- The column of a matrix index, as an index of the scale vector. -/
abbrev colOf (i : Mat.Idx) : Cols.Idx := fun a => match a with
  | ⟨0, _⟩ => ⟨(i 1).val, (i 1).isLt⟩

/-- The column-scaled matrix: entry `(r, k)` is `x(r, k) · e^{d(k)}`. -/
def scaled (x : Mat.Idx → EReal) (d : Cols.Idx → EReal) : Mat.Idx → EReal :=
  fun i => x i * Ideal.exp (d (colOf i))

theorem scaled_apply (x : Mat.Idx → EReal) (d : Cols.Idx → EReal) (i : Mat.Idx) :
    scaled x d i = x i * Ideal.exp (d (colOf i)) := rfl

/-- An entry of the scaled matrix depends on the matrix only at that entry and on the vector only at the
    entry's column: two index pairs naming the same matrix entry and the same column give the same value. -/
theorem scaled_congr (x : Mat.Idx → EReal) (d : Cols.Idx → EReal) {i i' : Mat.Idx} {k : Cols.Idx}
    (hi : i = i') (hk : k = colOf i') : x i * Ideal.exp (d k) = scaled x d i' := by
  subst hi hk; rfl

end Cert.ColumnScale

end
-- ==== Proof.ReferenceScaled.lean ====
/-
  The reference computes the column-scaled matrix.

  The reference exponentiates the vector `d`, lays the result out as one row `[1, 4096]`, repeats that row
  16384 times, and multiplies the matrix `x` by the repeated rows entry by entry.  Read at a matrix index
  `(r, k)`: the product reads the repeated rows at `(r, k)`, which is the single row at `(0, k)`, which is the
  exponentiated vector at `k`.  So the entry is `x(r, k) · e^{d(k)}`, the column-scaled matrix of
  `Cert.ColumnScale.scaled`.  On the extended reals the host's exponential is the same function `Ideal.exp` as
  any other exponential, and the product is the extended reals' product.
-/
import proofs.«149294_j54906861912422_1_alg».proof.Proof.Gen.ReferenceIdeal.Read
import proofs.«149294_j54906861912422_1_alg».proof.Proof.ColumnScale

noncomputable section

namespace Cert.ReferenceIdeal.Scaled

open Cert.ReferenceIdeal Cert.ReferenceIdeal.Read Idealize.ShloMosaic Cert.ColumnScale

/-- Following a matrix index back through the two broadcasts lands on the index's column: the repeated rows at
    `(r, k)` read the single row at `(0, k)`, which reads the vector at `k`. -/
theorem through_broadcasts (i : S16384x4096.Idx) : idx_main_v1 (idx_main_v2 i) = colOf i := by
  funext a
  match a with
  | ⟨0, _⟩ => rfl

/-- The reference's last stage is the column-scaled matrix of its two arguments, entry by entry. -/
theorem stages_eq (x : (⟨S16384x4096, .f32⟩ : BufTy).Contents (Elt Ideal)) (d : (⟨S4096, .f32⟩ : BufTy).Contents (Elt Ideal)) :
    val_main_v3 (F := Ideal) x d = scaled x d := by
  funext i
  rw [val_main_v3_apply, val_main_v2_apply, val_main_v1_apply, val_main_v0_apply, through_broadcasts]
  rfl

end Cert.ReferenceIdeal.Scaled

end
-- ==== Proof.KernelBlocks.lean ====
/-
  The kernel computes the column-scaled matrix, block of rows by block of rows.

  The kernel walks the matrix `x` in 32 blocks of 512 whole rows.  At block `t` it holds rows `512·t … 512·t + 511`
  of `x` and the WHOLE vector `d` (the same 4096 entries at every block), exponentiates the vector, lays the
  result out as one row, repeats that row 512 times and multiplies the block of `x` by it entry by entry.  So the
  block it writes has at local row `p` and column `k` the entry `x(512·t + p, k) · e^{d(k)}`: exactly rows
  `512·t … 512·t + 511` of the column-scaled matrix `Cert.ColumnScale.scaled x d`.

  The 32 blocks are written to the same rows of the output that they were read from in `x`, each spans every
  column, and row `r` lies in block `r / 512`; so the blocks cover the output and the output ends as the
  column-scaled matrix, whole.
-/
import proofs.«149294_j54906861912422_1_alg».proof.Proof.Gen.KernelIdeal.Value
import proofs.«149294_j54906861912422_1_alg».proof.Proof.ColumnScale

noncomputable section

namespace Cert.KernelIdeal.Scaled

open Cert.KernelIdeal Cert.KernelIdeal.Gen Idealize.ShloMosaic Idealize.ShloMosaic.TcCoe Idealize.SL.Sem Cert.ColumnScale
open Idealize.ShloMosaic.Pipeline (Dat)

variable (m : (ℓ : Loc nD τ sig) → Buf (Elt Ideal) ℓ) (ρ : Dev nD → PrngReg)

/-! ## One block -/

theorem origin1 : (![0] : Fin 1 → Nat) = fun _ => 0 := funext fun a => by fin_cases a <;> rfl
theorem origin2 : (![0, 0] : Fin 2 → Nat) = fun _ => 0 := funext fun a => by fin_cases a <;> rfl

/-- The column of a block index, as an index of the vector: a block spans every column, so a block's column IS
    the matrix's column. -/
abbrev blockCol (y : S512x4096.Idx) : S4096.Idx := fun a => match a with
  | ⟨0, _⟩ => ⟨(y 1).val, (y 1).isLt⟩

/-- What the body leaves in its output block, from a block `xb` of 512 rows and the whole vector `db`: at local
    row `p` and column `k` the entry `xb(p, k) · e^{db(k)}`.  The body reads both whole, and its one store writes the
    whole block; the exponentiated vector reaches entry `(p, k)` through a row layout `[1, 4096]` repeated down the
    rows, which reads it at `k`. -/
theorem body_block (xb : Vec Ideal S512x4096 .f32) (db : Vec Ideal S4096 .f32) (y : S512x4096.Idx) :
    out0_2 xb db y = xb y * Ideal.exp (db (blockCol y)) := by
  unfold out0_2
  refine (Value.canon2_eq (View.ld xb r0_1) (View.ld db r0_0) y).trans ?_
  rw [View.ld_unit_zero (S := S512x4096) origin2, View.ld_unit_zero (S := S4096) origin1]
  have e0 : Value.ix2_0 y = y := by
    funext a
    match a with
    | ⟨0, _⟩ => rfl
    | ⟨1, _⟩ => rfl
  show xb (Value.ix2_0 y) * Ideal.exp (db (Value.ix2_1 y)) = xb y * Ideal.exp (db (blockCol y))
  exact congrArg (fun z => xb z * Ideal.exp (db (blockCol y))) e0

/-! ## Where the blocks lie -/

/-- The three windows' block indices over the 32 grid points: the block of `x` read and the block of the output
    written are the same block of rows, both span every column (column-block 0), the vector is always its one
    whole block. -/
theorem block_indices : ∀ t : Fin cfg0.N,
    win0_0.index t (0 : Fin 2) = win0_2.index t (0 : Fin 2)
    ∧ win0_0.index t (1 : Fin 2) = 0
    ∧ win0_1.index t (0 : Fin 1) = 0
    ∧ win0_2.index t (1 : Fin 2) = 0 :=
  (by decide +kernel : ∀ t : Fin grid0.N, _)

/-- Every one of the 32 row-blocks of the output is some grid point's. -/
theorem every_row_block : ∀ q : Fin 32, ∃ t : Fin cfg0.N, win0_2.index t = ![q.val, 0] :=
  (by decide +kernel : ∀ q : Fin 32, ∃ t : Fin grid0.N, win0_2.index t = ![q.val, 0])

/-- WHAT GRID POINT `t` WRITES BACK is block `t` of the column-scaled matrix of the two arguments: the block of
    `x` is `x` read at the output block's own rows and columns, and the vector's block is the vector read at the
    entry's column. -/
theorem flushed_eq (c : Dev nD) (t : Fin cfg0.N) :
    (dats m 0 c).flushed 2 t
      = ((cfg0.win 2).blk t).view.read (Elt Ideal) (scaled (V m c main_arg0) (V m c main_arg1)) := by
  rw [Value.flushed2]
  obtain ⟨e0, e1, e2, e3⟩ := block_indices t
  funext j
  show out0_2 (iblk m c 0 t) (iblk m c 1 t) j
    = scaled (V m c main_arg0) (V m c main_arg1) (((cfg0.win 2).blk t).view.emb j)
  refine (body_block (iblk m c 0 t) (iblk m c 1 t) j).trans ?_
  refine scaled_congr (V m c main_arg0) (V m c main_arg1) (i := ((cfg0.win 0).blk t).view.emb j)
    (i' := ((cfg0.win 2).blk t).view.emb j) (k := ((cfg0.win 1).blk t).view.emb (blockCol j)) ?_ ?_
  · funext a; apply Fin.ext
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 4096 + 1 * (j 1).val = win0_2.index t (1 : Fin 2) * 4096 + 1 * (j 1).val
      omega
  · funext a; apply Fin.ext
    match a with
    | ⟨0, _⟩ =>
      show win0_1.index t (0 : Fin 1) * 4096 + 1 * (j 1).val = win0_2.index t (1 : Fin 2) * 4096 + 1 * (j 1).val
      omega

/-- An index of the output lies in grid point `t`'s block iff each coordinate lies in the block's range. -/
theorem mem_block (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v0).slice (win0_2.rect t)).set ↔ _
  rw [View.set_slice_whole, Rect.mem_set_unit]
  exact Iff.rfl

/-- The blocks cover the output: row `r` lies in row-block `r / 512`, and every block spans every column. -/
theorem blocks_cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := every_row_block ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 4096 ≤ (i 1).val ∧ (i 1).val < win0_2.index t (1 : Fin 2) * 4096 + 4096
    omega

/-! ## The whole output -/

/-- THE OUTPUT after the run is the column-scaled matrix of the two arguments. -/
theorem final (c : Dev nD) :
    (dats m 0 c).arrAt 2 cfg0.N
      = scaled (m ((c : Thread nD τ).loc main_arg0)) (m ((c : Thread nD τ).loc main_arg1)) :=
  (dats m 0 c).arrAt_eq_of_cover 2 (scaled (V m c main_arg0) (V m c main_arg1))
    (fun t _ => flushed_eq m c t) blocks_cover

/-- Every weakly fair execution of the kernel's program terminates with the output at the column-scaled matrix of the
    arguments and the arguments unchanged. -/
theorem run : θ_run defs (onTc (τ := τ) (main (F := Ideal))) ⟨m, fun _ => 0, ρ⟩ fun r => ∀ c : Dev nD,
      r.2.mem ((c : Thread nD τ).loc main_v0)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2.1, (h c).2.2⟩)
    (Value.run_blocks m ρ)

end Cert.KernelIdeal.Scaled

end
-- ==== Proof.lean ====
/-
  The kernel and the reference both compute `x · diag(exp d)` without forming the diagonal matrix: for a matrix
  `x` of 16384 rows and 4096 columns and a vector `d` of 4096 entries, the result has at row `r` and column `k` the
  entry `x(r, k) · e^{d(k)}`, and the vector `d` is handed back unchanged as a second result.

  Over the extended reals the two programs form, at every index, the same product of the same two numbers:
  · the reference exponentiates `d`, repeats the result down 16384 rows and multiplies by `x` entry by entry
    (Proof/ReferenceScaled.lean: read at `(r, k)`, the repeated rows give `e^{d(k)}`);
  · the kernel does the same on 32 blocks of 512 whole rows, each block multiplied by the same exponentiated vector,
    and writes each block to the rows it came from (Proof/KernelBlocks.lean: block `t` written is block `t` of the
    result, and row `r` lies in block `r / 512`, so the blocks make up the whole result).
  Both are the one function `Cert.ColumnScale.scaled` (Proof/ColumnScale.lean).  The exponential of the kernel and the
  exponential of the host are the same function of an extended real, the product is the extended reals' own, and
  no law that fails at an infinity is needed — the two sides are not rearrangements of each other but the same
  expression — so the inputs' finiteness is never used.  The second result is the argument `d` itself on both sides.

  Each program terminates with its arguments unchanged: for the kernel at both readings this is the generated frame,
  for the reference its generated run.  The idealized kernel is the kernel's own text (no operation was rewritten),
  so there is nothing to preserve.
-/
import proofs.«149294_j54906861912422_1_alg».proof.Defs
import proofs.«149294_j54906861912422_1_alg».proof.Proof.Gen.Kernel
import proofs.«149294_j54906861912422_1_alg».proof.Proof.Gen.Kernel.Skeleton
import proofs.«149294_j54906861912422_1_alg».proof.Proof.Gen.Kernel.Launch
import proofs.«149294_j54906861912422_1_alg».proof.Proof.Gen.Kernel.Points
import proofs.«149294_j54906861912422_1_alg».proof.Proof.Gen.Kernel.Frame
import proofs.«149294_j54906861912422_1_alg».proof.Proof.Gen.KernelIdeal
import proofs.«149294_j54906861912422_1_alg».proof.Proof.Gen.KernelIdeal.Skeleton
import proofs.«149294_j54906861912422_1_alg».proof.Proof.Gen.KernelIdeal.Launch
import proofs.«149294_j54906861912422_1_alg».proof.Proof.Gen.KernelIdeal.Points
import proofs.«149294_j54906861912422_1_alg».proof.Proof.Gen.KernelIdeal.Frame
import proofs.«149294_j54906861912422_1_alg».proof.Proof.Gen.ReferenceIdeal
import proofs.«149294_j54906861912422_1_alg».proof.Proof.Gen.Pre_finite_inputs
import proofs.«149294_j54906861912422_1_alg».proof.Proof.Gen.KernelIdeal.Value
import proofs.«149294_j54906861912422_1_alg».proof.Proof.Gen.ReferenceIdeal.Run
import proofs.«149294_j54906861912422_1_alg».proof.Proof.Gen.ReferenceIdeal.Read
import proofs.«149294_j54906861912422_1_alg».proof.Proof.ColumnScale
import proofs.«149294_j54906861912422_1_alg».proof.Proof.ReferenceScaled
import proofs.«149294_j54906861912422_1_alg».proof.Proof.KernelBlocks
import Idealize.ShloMosaic.Adequacy
import Idealize.ShloMosaic.Init

noncomputable section

namespace Cert.Proof

open Idealize.ShloMosaic Idealize.SL.Sem

/-- The kernel, read word by word, terminates with its arguments unchanged. -/
theorem frame_kernel : Cert.frame_Kernel := fun m ρ _ => Cert.Kernel.Gen.frame m ρ

/-- The kernel, read over the extended reals, terminates with its arguments unchanged. -/
theorem frame_kernel_ideal : Cert.frame_KernelIdeal := fun m ρ _ => Cert.KernelIdeal.Gen.frame m ρ

/-- The reference terminates with its arguments unchanged: its run, the results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealized kernel is the kernel's own text: no rewrite was applied, so nothing is to be preserved. -/
theorem preserves : Cert.preserves_Kernel_KernelIdeal := trivial

/-- From arguments that agree, both programs end with the column-scaled matrix `x(r, k) · e^{d(k)}` as first result
    and the vector `d` itself as second. -/
theorem algebraic : Cert.algebraic_KernelIdeal_ReferenceIdeal := by
  intro m ρ m' ρ' _ hagree
  refine ⟨fun c => Cert.ColumnScale.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg1), ?_, ?_⟩
  · exact (θ_run Cert.KernelIdeal.defs _ _).mono
      (fun _ h c => ⟨(h c).1, (h c).2.2, (h c).2.1, (h c).2.2⟩) (Cert.KernelIdeal.Scaled.run m ρ)
  · refine (θ_run Cert.ReferenceIdeal.defs _ _).mono (fun _ h c => ⟨?_, ?_, (h c).2.2.1, (h c).2.2.2⟩)
      (Cert.ReferenceIdeal.Value.run (F := Ideal) m' ρ')
    · rw [(h c).1, Cert.ReferenceIdeal.Read.val_main_v3_eq, Cert.ReferenceIdeal.Scaled.stages_eq,
        (hagree c).1, (hagree c).2]
    · rw [(h c).2.1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
